-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩
abbrev S8192x4096 : Shape := ⟨2, ![8192, 4096]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4096x4096, .f32⟩
  | .hbm, ⟨5, _⟩ => ⟨S4096x64, .f32⟩
  | .hbm, ⟨6, _⟩ => ⟨S64x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S8192x4096, .f32⟩
  | .hbm, ⟨14, _⟩ => ⟨S8192x4096, .bf16⟩
  | .hbm, ⟨15, _⟩ => ⟨S8192x4096, .f32⟩
  | .hbm, ⟨16, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4096x4096_S4096x4096_1_0 : S4096x4096.Transposes [1, 0] S4096x4096
  transposes_S64x4096_S4096x64_1_0 : S64x4096.Transposes [1, 0] S4096x64
  transposes_S4096x64_S64x4096_1_0 : S4096x64.Transposes [1, 0] S64x4096
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S4096x64_S64x4096_S4096x4096_1_0_0_1_n_n_wf : DotDims.WF S4096x64 S64x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S4x2048x64 : Shape := ⟨3, ![4, 2048, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4x2048x4096, .f32⟩
  | .hbm, ⟨5, _⟩ => ⟨S4x2048x64, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.Spec.lean ====
/-
  The two arrangements of a linear layer with a low-rank update, as functions of the four argument arrays.

  With x of extents [4, 2048, 4096], W of [4096, 4096], A of [64, 4096], B of [4096, 64] and a scaling constant s:
    * the fused arrangement folds the update into the weight first,
        out[b, t, n] = ∑ u, x[b, t, u] · (W[n, u] + s · ∑ r, A[r, u] · B[n, r]);
    * the low-rank arrangement keeps the two paths apart,
        out[b, t, n] = ∑ u, x[b, t, u] · W[n, u] + s · ∑ r, (∑ u, x[b, t, u] · A[r, u]) · B[n, r].
  The contraction over u is also cut into four consecutive stretches of 1024, summed stretch by stretch.
-/
import Idealize.ShloMosaic.PureOps.Ideal
import Idealize.ShloMosaic.Lib.ValueIdx

noncomputable section

namespace Cert.Lora

open Idealize.ShloMosaic Idealize.ShloMosaic.ValueIdx

abbrev SX : Shape := ⟨3, ![4, 2048, 4096]⟩
abbrev SW : Shape := ⟨2, ![4096, 4096]⟩
abbrev SA : Shape := ⟨2, ![64, 4096]⟩
abbrev SB : Shape := ⟨2, ![4096, 64]⟩
abbrev SM : Shape := ⟨2, ![8192, 4096]⟩

/-- The scaling constant, kept as the word both programs print. -/
abbrev scale : EReal := Ideal.ofBits .f32 0x40000000#32

/-- Entry (u, n) of the fused weight: `W[n, u] + s · ∑ r, A[r, u] · B[n, r]`. -/
def fusedWeight (W : SW.Idx → EReal) (A : SA.Idx → EReal) (B : SB.Idx → EReal) (u n : Fin 4096) : EReal :=
  W (ix2 n u) + scale * ∑ r : Fin 64, A (ix2 r u) * B (ix2 n r)

/-- The fused arrangement. -/
def fused (x : SX.Idx → EReal) (W : SW.Idx → EReal) (A : SA.Idx → EReal) (B : SB.Idx → EReal) (i : SX.Idx) : EReal :=
  ∑ u : Fin 4096, x (ix3 (i 0) (i 1) u) * fusedWeight W A B u (i 2)

/-- The low-rank arrangement. -/
def lowRank (x : SX.Idx → EReal) (W : SW.Idx → EReal) (A : SA.Idx → EReal) (B : SB.Idx → EReal) (i : SX.Idx) : EReal :=
  (∑ u : Fin 4096, x (ix3 (i 0) (i 1) u) * W (ix2 (i 2) u))
    + scale * ∑ r : Fin 64, (∑ u : Fin 4096, x (ix3 (i 0) (i 1) u) * A (ix2 r u)) * B (ix2 (i 2) r)

/-- Position `kk` of stretch `s` of the contraction axis. -/
def stretchIx (s : Fin 4) (kk : Fin 1024) : Fin 4096 := ⟨1024 * s.val + kk.val, by have := s.isLt; have := kk.isLt; omega⟩

@[simp] theorem stretchIx_val (s : Fin 4) (kk : Fin 1024) : (stretchIx s kk).val = 1024 * s.val + kk.val := rfl

/-- Stretch `s`'s share of the product of a [8192, 4096] matrix with a [4096, 4096] one at (row, col); zero past the fourth. -/
def stretchTerm (X : SM.Idx → EReal) (Wf : SW.Idx → EReal) (row : Fin 8192) (col : Fin 4096) (s : ℕ) : EReal :=
  if h : s < 4 then ∑ kk : Fin 1024, X (ix2 row (stretchIx ⟨s, h⟩ kk)) * Wf (ix2 (stretchIx ⟨s, h⟩ kk) col) else 0

/-- The first `cnt` stretches' shares, summed. -/
def partialProd (X : SM.Idx → EReal) (Wf : SW.Idx → EReal) (row : Fin 8192) (col : Fin 4096) (cnt : ℕ) : EReal :=
  ∑ s ∈ Finset.range cnt, stretchTerm X Wf row col s

theorem partialProd_zero (X : SM.Idx → EReal) (Wf : SW.Idx → EReal) (row : Fin 8192) (col : Fin 4096) :
    partialProd X Wf row col 0 = 0 := by
  unfold partialProd; rw [Finset.range_zero, Finset.sum_empty]

theorem partialProd_succ (X : SM.Idx → EReal) (Wf : SW.Idx → EReal) (row : Fin 8192) (col : Fin 4096) (cnt : ℕ) :
    partialProd X Wf row col (cnt + 1) = partialProd X Wf row col cnt + stretchTerm X Wf row col cnt := by
  unfold partialProd; rw [Finset.sum_range_succ]

/-- The whole product at (row, col). -/
def fullProd (X : SM.Idx → EReal) (Wf : SW.Idx → EReal) (row : Fin 8192) (col : Fin 4096) : EReal :=
  ∑ u : Fin 4096, X (ix2 row u) * Wf (ix2 u col)

/-- The four stretches make up the contraction axis: each position is `1024 · s + kk` for exactly one (s, kk). -/
def stretchEquiv : Fin 4 × Fin 1024 ≃ Fin 4096 where
  toFun a := stretchIx a.1 a.2
  invFun u := (⟨u.val / 1024, by have := u.isLt; omega⟩, ⟨u.val % 1024, Nat.mod_lt _ (by norm_num)⟩)
  left_inv a := by
    obtain ⟨s, kk⟩ := a
    have := s.isLt; have := kk.isLt
    refine Prod.ext (Fin.ext ?_) (Fin.ext ?_)
    · show (1024 * s.val + kk.val) / 1024 = s.val; omega
    · show (1024 * s.val + kk.val) % 1024 = kk.val; omega
  right_inv u := by
    apply Fin.ext
    show 1024 * (u.val / 1024) + u.val % 1024 = u.val
    omega

/-- Four stretches are the whole product. -/
theorem partialProd_four (X : SM.Idx → EReal) (Wf : SW.Idx → EReal) (row : Fin 8192) (col : Fin 4096) :
    partialProd X Wf row col 4 = fullProd X Wf row col := by
  unfold partialProd fullProd
  rw [Finset.sum_range fun s => stretchTerm X Wf row col s]
  have e : ∀ s : Fin 4, stretchTerm X Wf row col s.val
      = ∑ kk : Fin 1024, X (ix2 row (stretchIx s kk)) * Wf (ix2 (stretchIx s kk) col) := fun s => by
    unfold stretchTerm; rw [dif_pos s.isLt]
  simp only [e]
  rw [← Fintype.sum_prod_type' (f := fun s kk => X (ix2 row (stretchIx s kk)) * Wf (ix2 (stretchIx s kk) col))]
  exact Equiv.sum_comp stretchEquiv (fun u => X (ix2 row u) * Wf (ix2 u col))

end Cert.Lora

end
-- ==== Proof.Algebra.lean ====
/-
  The fused and the low-rank arrangements agree when every entry is a real number:
  ∑ u, x u · (w u + s · ∑ r, a r u · b r) = ∑ u, x u · w u + s · ∑ r, (∑ u, x u · a r u) · b r,
  by distributing x u over the bracket, pulling s out, and exchanging the two finite sums.
-/
import proofs.«121115_j53068615909970_1_alg».proof.Proof.Spec

noncomputable section

namespace Cert.Lora

open Idealize.ShloMosaic Idealize.ShloMosaic.ValueIdx

/-- Reading a finite sum of real numbers in the extended reals gives the sum of the readings. -/
theorem coe_finsum {ι : Type} (t : Finset ι) (f : ι → ℝ) :
    ((∑ i ∈ t, f i : ℝ) : EReal) = ∑ i ∈ t, (f i : EReal) := by
  classical
  induction t using Finset.induction_on with
  | empty => rw [Finset.sum_empty, Finset.sum_empty, EReal.coe_zero]
  | insert a t ha ih => rw [Finset.sum_insert ha, Finset.sum_insert ha, EReal.coe_add, ih]

/-- The identity among real numbers: x u is distributed over the bracket, s is pulled out of the
    sum over u, and the sums over u and r change places. -/
theorem lora_real {ι κ : Type} [Fintype ι] [Fintype κ] (x w : ι → ℝ) (a : κ → ι → ℝ) (b : κ → ℝ) (s : ℝ) :
    ∑ u, x u * (w u + s * ∑ r, a r u * b r)
      = (∑ u, x u * w u) + s * ∑ r, (∑ u, x u * a r u) * b r := by
  have inner : ∀ u, x u * (w u + s * ∑ r, a r u * b r) = x u * w u + s * ∑ r, x u * a r u * b r := fun u => by
    rw [mul_add, Finset.mul_sum, Finset.mul_sum, Finset.mul_sum]
    congr 1
    refine Finset.sum_congr rfl fun r _ => ?_
    ring
  rw [Finset.sum_congr rfl fun u _ => inner u, Finset.sum_add_distrib, ← Finset.mul_sum, Finset.sum_comm]
  congr 2
  refine Finset.sum_congr rfl fun r _ => ?_
  rw [Finset.sum_mul]

/-- The same identity with every real entry read in the extended reals. -/
theorem lora_coe {ι κ : Type} [Fintype ι] [Fintype κ] (x w : ι → ℝ) (a : κ → ι → ℝ) (b : κ → ℝ) (s : ℝ) :
    ∑ u, (x u : EReal) * ((w u : EReal) + (s : EReal) * ∑ r, (a r u : EReal) * (b r : EReal))
      = (∑ u, (x u : EReal) * (w u : EReal))
        + (s : EReal) * ∑ r, (∑ u, (x u : EReal) * (a r u : EReal)) * (b r : EReal) := by
  have h := congrArg (fun t : ℝ => (t : EReal)) (lora_real x w a b s)
  simp only [coe_finsum, EReal.coe_add, EReal.coe_mul] at h
  exact h

/-- The scaling constant is a real number. -/
theorem scale_real : ∃ s : ℝ, scale = (s : EReal) := by
  refine ⟨2, ?_⟩
  simp [scale, Ideal.ofBits, Ideal.ieee, -EReal.coe_mul]
  norm_num

/-- Over real entries the fused arrangement is the low-rank one. -/
theorem fused_eq_lowRank (x : SX.Idx → EReal) (W : SW.Idx → EReal) (A : SA.Idx → EReal) (B : SB.Idx → EReal)
    (hx : ∀ j, ∃ r : ℝ, x j = (r : EReal)) (hW : ∀ j, ∃ r : ℝ, W j = (r : EReal))
    (hA : ∀ j, ∃ r : ℝ, A j = (r : EReal)) (hB : ∀ j, ∃ r : ℝ, B j = (r : EReal)) :
    fused x W A B = lowRank x W A B := by
  choose x' hx' using hx
  choose W' hW' using hW
  choose A' hA' using hA
  choose B' hB' using hB
  obtain ⟨s, hs⟩ := scale_real
  funext i
  unfold fused lowRank fusedWeight
  rw [hs]
  simp only [hx', hW', hA', hB']
  exact lora_coe (fun u => x' (ix3 (i 0) (i 1) u)) (fun u => W' (ix2 (i 2) u))
    (fun r u => A' (ix2 r u)) (fun r => B' (ix2 (i 2) r)) s

end Cert.Lora

end
-- ==== Proof.Finite.lean ====
/-
  The precondition read: when the finiteness predicate of the four inputs is all ones, every entry of every
  input is a real number (its absolute value is below +∞, so it is neither infinity).
-/
import proofs.«121115_j53068615909970_1_alg».proof.Pre_finite_inputs
import proofs.«121115_j53068615909970_1_alg».proof.Proof.Spec
import Idealize.ShloMosaic.Lib.ReduceAll

noncomputable section

namespace Cert.Lora

open Idealize.ShloMosaic Idealize.ShloMosaic.ValueIdx

/-- The rank-0 shape has one index: two indices are functions out of the empty set of axes. -/
instance subsingleton_scalarIdx : Subsingleton Cert.Pre_finite_inputs.S_.Idx :=
  ⟨fun a b => funext fun d => d.elim0⟩

/-- The word 0x7F800000 (sign 0, exponent all ones, significand 0) denotes +∞. -/
theorem ofBits_inf : Ideal.ofBits .f32 0x7F800000#32 = (⊤ : EReal) := by
  simp [Ideal.ofBits, Ideal.ieee]

/-- An extended real whose absolute value max v (−v) lies strictly below +∞ is a real number:
    at −∞ the absolute value is −(−∞) = +∞, at +∞ it is +∞ itself. -/
theorem real_of_abs_lt_top (v : EReal) (hv : max v (-v) < ⊤) : ∃ r : ℝ, v = (r : EReal) := by
  induction v using EReal.rec with
  | bot => exact absurd hv (by simp)
  | coe r => exact ⟨r, rfl⟩
  | top => exact absurd hv (by simp)

/-- One entry: the comparison |v| < +∞ coming out as the word 1 makes v a real number. -/
theorem real_of_cmp_one (v : Ideal .f32)
    (hv : FloatOps.cmpf (F := Ideal) .olt (FloatOps.hostAbsf v) (Ideal.ofBits .f32 0x7F800000#32) = 1#1) :
    ∃ r : ℝ, v = (r : EReal) := by
  apply real_of_abs_lt_top
  rw [ofBits_inf] at hv
  by_contra hn
  have : FloatOps.cmpf (F := Ideal) .olt (FloatOps.hostAbsf v) (⊤ : EReal) = 0#1 := by
    show BitVec.ofBool (decide (max v (-v) < ⊤)) = 0#1
    rw [decide_eq_false hn]; rfl
  rw [this] at hv
  exact absurd hv (by decide)

/-- One input of any shape: if the conjunction over all entries of |x j| < +∞ (a reduction by `and` into the one
    scalar index, from the initial word 1) is 1, every entry of x is a real number. -/
theorem real_of_all {s u : Shape} {axes : List (Fin s.rank)} (x : FVec Ideal s .f32) (c : FVec Ideal s .f32)
    (hc : ∀ j, c j = Ideal.ofBits .f32 0x7F800000#32) (init : IVec u 1)
    (hr : s.ReducesTo axes Cert.Pre_finite_inputs.S_) (hu : 0 < u.numel) (j0 : Cert.Pre_finite_inputs.S_.Idx)
    (e : Host.reduce IntOp.andi (cmpf .olt (Host.absf x) c) init hr hu j0 = 1#1) :
    ∀ j, ∃ r : ℝ, x j = (r : EReal) := by
  intro j
  have h1 := Host.reduce_andi_all (cmpf .olt (Host.absf x) c) init hr hu j0 e j
  apply real_of_cmp_one
  have h2 : cmpf .olt (Host.absf x) c j = FloatOps.cmpf .olt (FloatOps.hostAbsf (x j)) (c j) := rfl
  rw [h2, hc j] at h1
  exact h1

/-- All ones from the finiteness predicate: each of the four inputs has only real entries. -/
theorem real_of_finite [Cert.Pre_finite_inputs.Facts]
    (x0 : FVec Ideal Cert.Pre_finite_inputs.S4x2048x4096 .f32) (x1 : FVec Ideal Cert.Pre_finite_inputs.S4096x4096 .f32)
    (x2 : FVec Ideal Cert.Pre_finite_inputs.S64x4096 .f32) (x3 : FVec Ideal Cert.Pre_finite_inputs.S4096x64 .f32)
    (h : Cert.Pre_finite_inputs.fn (F := Ideal) x0 x1 x2 x3 = fun _ => 1#1) :
    (∀ j, ∃ r : ℝ, x0 j = (r : EReal)) ∧ (∀ j, ∃ r : ℝ, x1 j = (r : EReal))
      ∧ (∀ j, ∃ r : ℝ, x2 j = (r : EReal)) ∧ (∀ j, ∃ r : ℝ, x3 j = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ (fun _ => rfl) _ _ _ _ h0', real_of_all x1 _ (fun _ => rfl) _ _ _ _ h1,
    real_of_all x2 _ (fun _ => rfl) _ _ _ _ h2, real_of_all x3 _ (fun _ => rfl) _ _ _ _ h3⟩

end Cert.Lora

end
-- ==== Proof.RefSide.lean ====
/-
  The reference program's result, read at an index: the base product plus the scaling constant times the
  low-rank product, each host contraction a finite sum over its shared coordinate.
-/
import proofs.«121115_j53068615909970_1_alg».proof.Proof.Gen.ReferenceIdeal.Run
import proofs.«121115_j53068615909970_1_alg».proof.Proof.Gen.ReferenceIdeal.Read
import proofs.«121115_j53068615909970_1_alg».proof.Proof.Spec

noncomputable section

namespace Cert.Lora.Ref

open Idealize.ShloMosaic Idealize.ShloMosaic.ValueIdx Cert.ReferenceIdeal Cert.ReferenceIdeal.Read

/-- The base product reads x at (b, t, k): the output's first two coordinates and the shared one. -/
theorem lidx_v0 (i : S4x2048x4096.Idx) (k : Fin 4096) : lidx_main_v0 i k = ix3 (i 0) (i 1) k :=
  funext fun a => by match a with | ⟨0, _⟩ => rfl | ⟨1, _⟩ => rfl | ⟨2, _⟩ => rfl

/-- The base product reads W at (n, k): the output's last coordinate and the shared one. -/
theorem ridx_v0 (i : S4x2048x4096.Idx) (k : Fin 4096) : ridx_main_v0 i k = ix2 (i 2) k :=
  funext fun a => by match a with | ⟨0, _⟩ => rfl | ⟨1, _⟩ => rfl

/-- The down-projection at (b, t, r), reached from the output index through the second product's left
    operand, reads x at (b, t, k). -/
theorem lidx_v1 (i : S4x2048x4096.Idx) (r : Fin 64) (k : Fin 4096) :
    lidx_main_v1 (lidx_main_v2 i r) k = ix3 (i 0) (i 1) k :=
  funext fun a => by match a with | ⟨0, _⟩ => rfl | ⟨1, _⟩ => rfl | ⟨2, _⟩ => rfl

/-- The down-projection at (b, t, r), reached the same way, reads A at (r, k). -/
theorem ridx_v1 (i : S4x2048x4096.Idx) (r : Fin 64) (k : Fin 4096) :
    ridx_main_v1 (lidx_main_v2 i r) k = ix2 r k :=
  funext fun a => by match a with | ⟨0, _⟩ => rfl | ⟨1, _⟩ => rfl

/-- The up-projection reads B at (n, r). -/
theorem ridx_v2 (i : S4x2048x4096.Idx) (r : Fin 64) : ridx_main_v2 i r = ix2 (i 2) r :=
  funext fun a => by match a with | ⟨0, _⟩ => rfl | ⟨1, _⟩ => rfl

/-- The reference's last stage is the low-rank arrangement of its four arguments. -/
theorem val_eq_lowRank (x0 : FVec Ideal S4x2048x4096 .f32) (x1 : FVec Ideal S4096x4096 .f32)
    (x2 : FVec Ideal S64x4096 .f32) (x3 : FVec Ideal S4096x64 .f32) :
    val_main_v5 (F := Ideal) x0 x1 x2 x3 = Cert.Lora.lowRank x0 x1 x2 x3 := by
  funext i
  -- the sum, the product by the broadcast constant, and the three contractions, outermost first
  rw [val_main_v5_apply, val_main_v0_apply, val_main_v4_apply, val_main_v3_apply, val_main_cst_apply,
    val_main_v2_apply]
  simp only [val_main_v1_apply, lidx_v0, ridx_v0, lidx_v1, ridx_v1, ridx_v2, Ideal.addf_def, Ideal.mulf_def,
    Ideal.ofBits_def]
  rfl

end Cert.Lora.Ref

end
-- ==== Proof.KerPieces.lean ====
/-
  What one run of the kernel body leaves behind, as values of its loads.

  The body keeps a [1024, 1024] accumulator in scratch memory across the innermost grid axis k:
    * at k = 0 it first stores the zero block, reads it back, and leaves  zero + a·b  in the accumulator;
    * at every other k it leaves  acc + a·b,  acc being what the point before left;
    * at k = 3 it also copies the accumulator it has just written into the output block.
  Here a and b are the two input blocks of the point and a·b their matrix product.
-/
import proofs.«121115_j53068615909970_1_alg».proof.Proof.Gen.KernelIdeal.Frame
import Idealize.ShloMosaic.Lib.Pipeline.Value
import Idealize.ShloMosaic.Lib.Tactic

noncomputable section

namespace Cert.Lora.Ker

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First point of an accumulation (k = 0): the accumulator ends at the update of the zero block it has just stored. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point (k = 1, 2): the accumulator ends at the update of what the point before left. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- The last point (k = 3): the accumulator ends at the update of what the point before left. -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- The last point (k = 3): the output block is the updated accumulator, read back after it was stored. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

end Cert.Lora.Ker

end
-- ==== Proof.KerPayload.lean ====
/-
  The body's arithmetic read at an index, over the extended reals: the reset block is zero everywhere, and the
  update of an accumulator acc by blocks a, b of extents [1024, 1024] is, at (p, q),
      acc[p, q] + ∑ kk, a[p, kk] · b[kk, q]
  (the matrix unit's product into a zero accumulator is the plain finite sum over the shared coordinate).
-/
import proofs.«121115_j53068615909970_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Lora.Ker

open Idealize.ShloMosaic Idealize.ShloMosaic.ValueIdx
open Cert.KernelIdeal Cert.KernelIdeal.Gen

/-- The block product reads its left operand, on axis 0, at the output's row. -/
theorem mm_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The block product reads its left operand, on axis 1, at the shared coordinate. -/
theorem mm_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The block product reads its right operand, on axis 0, at the shared coordinate. -/
theorem mm_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The block product reads its right operand, on axis 1, at the output's column. -/
theorem mm_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero accumulator, at (p, q): the sum over the shared coordinate. -/
theorem blockProduct_apply (a b : FVec Ideal S1024x1024 .bf16) (p q : Fin 1024) :
    matmul dot_S1024x1024_S1024x1024_S1024x1024_1_0_0_1_n_n none a b (constant S1024x1024 .f32 0x00000000#32) (ix2 p q)
      = ∑ kk : Fin 1024, a (ix2 p kk) * b (ix2 kk q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact mm_lhs_0 _ _
    | ⟨1, _⟩ => exact (mm_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (mm_rhs_0 _ _).trans hk
    | ⟨1, _⟩ => exact mm_rhs_1 _ _)
  rw [el, er]

/-- The update is the accumulator plus the block product, whatever the float instance. -/
theorem update_eq {F : FTy → Type} [FloatOps F] (acc : Vec F S1024x1024 .f32) (a b : Vec F S1024x1024 .bf16) :
    k0_pay2 acc a b = addf acc (matmul dot_S1024x1024_S1024x1024_S1024x1024_1_0_0_1_n_n none a b (constant S1024x1024 .f32 0x00000000#32)) := by
  unfold k0_pay2
  simp only [shapeCast_self]

/-- The update at (p, q), over the extended reals. -/
theorem update_apply (acc : Vec Ideal S1024x1024 .f32) (a b : Vec Ideal S1024x1024 .bf16) (p q : Fin 1024) :
    k0_pay2 (F := Ideal) acc a b (ix2 p q) = acc (ix2 p q) + ∑ kk : Fin 1024, a (ix2 p kk) * b (ix2 kk q) := by
  rw [update_eq]
  exact congrArg (acc (ix2 p q) + ·) (blockProduct_apply a b p q)

/-- The reset block is zero everywhere. -/
theorem reset_apply (j : S1024x1024.Idx) : k0_pay1 (F := Ideal) j = 0 := by
  unfold k0_pay1
  simp only [shapeCast_self]
  exact Ideal.ofBits_zero_f32

end Cert.Lora.Ker

end
-- ==== Proof.KerBlocks.lean ====
/-
  Which entries of the two operand matrices a grid point's input blocks hold.

  The grid has 8 × 4 × 4 points, the last axis fastest: point t has coordinates (i, j, k) = (t / 16, (t / 4) % 4, t % 4).
  At that point the left window holds block (i, k) of the [8192, 4096] matrix, the right window block (k, j) of the
  [4096, 4096] matrix, and the output window is block (i, j) of the [8192, 4096] result; a block's entry (p, q) is the
  matrix's entry (1024 · block row + p, 1024 · block column + q).
-/
import proofs.«121115_j53068615909970_1_alg».proof.Proof.Gen.KernelIdeal.Frame
import Idealize.ShloMosaic.Lib.Pipeline.Value
import Idealize.ShloMosaic.Lib.ValueIdx

noncomputable section

namespace Cert.Lora.Ker

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block indices of the three windows at point t, from t's coordinates. -/
theorem index_facts : ∀ t : Fin cfg0.N,
    win0_0.index t 0 = t.val / 16 ∧ win0_0.index t 1 = t.val % 4
    ∧ win0_1.index t 0 = t.val % 4 ∧ win0_1.index t 1 = (t.val / 4) % 4
    ∧ win0_2.index t 0 = t.val / 16 ∧ win0_2.index t 1 = (t.val / 4) % 4 :=
  (by decide +kernel : ∀ t : Fin grid0.N,
    win0_0.index t 0 = t.val / 16 ∧ win0_0.index t 1 = t.val % 4
    ∧ win0_1.index t 0 = t.val % 4 ∧ win0_1.index t 1 = (t.val / 4) % 4
    ∧ win0_2.index t 0 = t.val / 16 ∧ win0_2.index t 1 = (t.val / 4) % 4)

/-- The left operand matrix as the region finds it. -/
abbrev lhsArr (c : Dev nD) : Vec F S8192x4096 .bf16 := V m c main_v9
/-- The right operand matrix as the region finds it. -/
abbrev rhsArr (c : Dev nD) : Vec F S4096x4096 .bf16 := V m c main_v7
/-- The left window's block at point t. -/
abbrev lhsBlk (c : Dev nD) (t : Fin cfg0.N) : Vec F S1024x1024 .bf16 := iblk m c 0 t
/-- The right window's block at point t. -/
abbrev rhsBlk (c : Dev nD) (t : Fin cfg0.N) : Vec F S1024x1024 .bf16 := iblk m c 1 t

/-- Row p of block row i of an [8192, ·] matrix. -/
def bigRow (i : ℕ) (hi : i < 8) (p : Fin 1024) : Fin 8192 := ⟨1024 * i + p.val, by have := p.isLt; omega⟩
/-- Column q of block column j of a [·, 4096] matrix (also: row of a [4096, ·] one). -/
def bigCol (j : ℕ) (hj : j < 4) (q : Fin 1024) : Fin 4096 := ⟨1024 * j + q.val, by have := q.isLt; omega⟩

theorem N128 : cfg0.N = 128 := N_0

theorem t_lt (t : Fin cfg0.N) : t.val < 128 := lt_of_lt_of_eq t.isLt N128

theorem t_div16 (t : Fin cfg0.N) : t.val / 16 < 8 := by have := t_lt t; omega
theorem t_div4mod (t : Fin cfg0.N) : (t.val / 4) % 4 < 4 := Nat.mod_lt _ (by norm_num)
theorem t_mod4 (t : Fin cfg0.N) : t.val % 4 < 4 := Nat.mod_lt _ (by norm_num)

/-- The left block at point t, entry (p, kk): the matrix's entry (1024·(t/16) + p, 1024·(t%4) + kk). -/
theorem lhsBlk_apply (c : Dev nD) (t : Fin cfg0.N) (p kk : Fin 1024) :
    lhsBlk m c t (ix2 p kk) = lhsArr m c (ix2 (bigRow (t.val / 16) (t_div16 t) p) (bigCol (t.val % 4) (t_mod4 t) kk)) := by
  obtain ⟨h00, h01, -, -, -, -⟩ := index_facts t
  show iblk m c 0 t (ix2 p kk) = _
  unfold iblk
  rw [View.read_apply]
  show V m c main_v9 _ = V m c main_v9 _
  congr 1
  funext a
  apply Fin.ext
  match a with
  | ⟨0, _⟩ => show win0_0.index t 0 * 1024 + 1 * p.val = 1024 * (t.val / 16) + p.val; rw [h00]; omega
  | ⟨1, _⟩ => show win0_0.index t 1 * 1024 + 1 * kk.val = 1024 * (t.val % 4) + kk.val; rw [h01]; omega

/-- The right block at point t, entry (kk, q): the matrix's entry (1024·(t%4) + kk, 1024·((t/4)%4) + q). -/
theorem rhsBlk_apply (c : Dev nD) (t : Fin cfg0.N) (kk q : Fin 1024) :
    rhsBlk m c t (ix2 kk q) = rhsArr m c (ix2 (bigCol (t.val % 4) (t_mod4 t) kk) (bigCol ((t.val / 4) % 4) (t_div4mod t) q)) := by
  obtain ⟨-, -, h10, h11, -, -⟩ := index_facts t
  show iblk m c 1 t (ix2 kk q) = _
  unfold iblk
  rw [View.read_apply]
  show V m c main_v7 _ = V m c main_v7 _
  congr 1
  funext a
  apply Fin.ext
  match a with
  | ⟨0, _⟩ => show win0_1.index t 0 * 1024 + 1 * kk.val = 1024 * (t.val % 4) + kk.val; rw [h10]; omega
  | ⟨1, _⟩ => show win0_1.index t 1 * 1024 + 1 * q.val = 1024 * ((t.val / 4) % 4) + q.val; rw [h11]; omega

end Cert.Lora.Ker

end
-- ==== Proof.KerAccum.lean ====
/-
  The accumulator across the innermost grid axis.

  Point t = 16·i + 4·j + k works on block (i, j) of the result. After it the scratch accumulator holds, at (p, q),
  the first k + 1 stretches' shares of the product of the two operand matrices at row 1024·i + p and column
  1024·j + q: the point k = 0 starts from the zero block, each later point adds its own stretch to what the point
  before left (induction on the point). At k = 3 the output block is that accumulator, i.e. all four stretches.
-/
import proofs.«121115_j53068615909970_1_alg».proof.Proof.Spec
import proofs.«121115_j53068615909970_1_alg».proof.Proof.KerPieces
import proofs.«121115_j53068615909970_1_alg».proof.Proof.KerPayload
import proofs.«121115_j53068615909970_1_alg».proof.Proof.KerBlocks

noncomputable section

namespace Cert.Lora.Ker

open Idealize.ShloMosaic Idealize.ShloMosaic.TcCoe Idealize.SL.Sem Idealize.ShloMosaic.ValueIdx
open Cert.KernelIdeal Cert.KernelIdeal.Gen Cert.Lora

variable (m : (ℓ : Loc nD τ sig) → Buf (Elt Ideal) ℓ)

/-- The accumulator after point t, as a [1024, 1024] block of extended reals. -/
abbrev accAfter (c : Dev nD) (n : ℕ) (h : n < cfg0.N) : Vec Ideal S1024x1024 .f32 := (outsAt0 m c n h).2
/-- The output window's staging block after point t. -/
abbrev outAfter (c : Dev nD) (n : ℕ) (h : n < cfg0.N) : Vec Ideal S1024x1024 .f32 := (outsAt0 m c n h).1

/-- What a point adds at (p, q): the product of its two input blocks there. -/
def pointShare (c : Dev nD) (t : Fin cfg0.N) (p q : Fin 1024) : EReal :=
  ∑ kk : Fin 1024, lhsBlk m c t (ix2 p kk) * rhsBlk m c t (ix2 kk q)

/-- A point with k = 0 leaves its own share (it starts from the zero block). -/
theorem acc_first (c : Dev nD) (t : Fin cfg0.N) (h0 : t.val % 4 = 0) (p q : Fin 1024) :
    accAfter m c t.val t.isLt (ix2 p q) = pointShare m c t p q := by
  have h1 : ¬t.val % 4 = 3 := by omega
  show (outsAt0 m c t.val t.isLt).2 (ix2 p q) = _
  rw [outsAt0_A m c t h0 h1]
  dsimp only
  refine (congrFun (scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (lhsBlk m c t) (rhsBlk m c t)) (ix2 p q)).trans ?_
  refine (update_apply (k0_pay1 (F := Ideal)) (lhsBlk m c t) (rhsBlk m c t) p q).trans ?_
  rw [reset_apply, zero_add]
  rfl

/-- A point with k ≠ 0 adds its share to what the point before left. -/
theorem acc_later (c : Dev nD) (t : Fin cfg0.N) (h0 : ¬t.val % 4 = 0) (p q : Fin 1024) :
    accAfter m c t.val t.isLt (ix2 p q)
      = accAfter m c (t.val - 1) (Nat.lt_of_le_of_lt (Nat.sub_le _ _) t.isLt) (ix2 p q) + pointShare m c t p q := by
  show (outsAt0 m c t.val t.isLt).2 (ix2 p q) = _
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (accAfter m c (t.val - 1) (Nat.lt_of_le_of_lt (Nat.sub_le _ _) t.isLt))) (ix2 p q)).trans ?_
    exact update_apply (accAfter m c (t.val - 1) (Nat.lt_of_le_of_lt (Nat.sub_le _ _) t.isLt)) (lhsBlk m c t) (rhsBlk m c t) p q
  · rw [outsAt0_B m c t h0 h1]
    dsimp only
    refine (congrFun (scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (lhsBlk m c t) (rhsBlk m c t) (accAfter m c (t.val - 1) (Nat.lt_of_le_of_lt (Nat.sub_le _ _) t.isLt))) (ix2 p q)).trans ?_
    exact update_apply (accAfter m c (t.val - 1) (Nat.lt_of_le_of_lt (Nat.sub_le _ _) t.isLt)) (lhsBlk m c t) (rhsBlk m c t) p q

/-- At k = 3 the output block is the accumulator the point has just written. -/
theorem out_eq_acc (c : Dev nD) (t : Fin cfg0.N) (h1 : t.val % 4 = 3) :
    outAfter m c t.val t.isLt = accAfter m c t.val t.isLt := by
  have h0 : ¬t.val % 4 = 0 := by omega
  show (outsAt0 m c t.val t.isLt).1 = (outsAt0 m c t.val t.isLt).2
  rw [outsAt0_C m c t h0 h1]
  dsimp only
  rw [out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (accAfter m c (t.val - 1) (Nat.lt_of_le_of_lt (Nat.sub_le _ _) t.isLt)),
    scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (accAfter m c (t.val - 1) (Nat.lt_of_le_of_lt (Nat.sub_le _ _) t.isLt))]

/-- A point's share is its stretch's share of the matrix product, at its block's row and column. -/
theorem pointShare_eq (c : Dev nD) (t : Fin cfg0.N) (i : ℕ) (hi : i < 8) (j : ℕ) (hj : j < 4) (s : ℕ) (hs : s < 4)
    (ht : t.val = 16 * i + 4 * j + s) (p q : Fin 1024) :
    pointShare m c t p q = stretchTerm (lhsArr m c) (rhsArr m c) (bigRow i hi p) (bigCol j hj q) s := by
  have ei : i = t.val / 16 := by omega
  have ej : j = (t.val / 4) % 4 := by omega
  have es : s = t.val % 4 := by omega
  subst ei; subst ej; subst es
  unfold pointShare stretchTerm
  rw [dif_pos hs]
  refine Finset.sum_congr rfl fun kk _ => ?_
  rw [lhsBlk_apply, rhsBlk_apply]
  rfl

/-- After point 16·i + 4·j + k the accumulator holds the first k + 1 stretches' shares. -/
theorem acc_eq_partial (c : Dev nD) : ∀ (n : ℕ) (h : n < cfg0.N) (i : ℕ) (hi : i < 8) (j : ℕ) (hj : j < 4) (s : ℕ) (hs : s < 4),
    n = 16 * i + 4 * j + s → ∀ p q : Fin 1024,
    accAfter m c n h (ix2 p q) = partialProd (lhsArr m c) (rhsArr m c) (bigRow i hi p) (bigCol j hj q) (s + 1) := by
  intro n
  induction n with
  | zero =>
    intro h i hi j hj s hs hn p q
    obtain rfl : s = 0 := by omega
    rw [partialProd_succ, partialProd_zero, zero_add]
    exact (acc_first m c ⟨0, h⟩ rfl p q).trans (pointShare_eq m c ⟨0, h⟩ i hi j hj 0 hs hn p q)
  | succ n ih =>
    intro h i hi j hj s hs hn p q
    rw [partialProd_succ]
    cases s with
    | zero =>
      rw [partialProd_zero, zero_add]
      exact (acc_first m c ⟨n + 1, h⟩ (by show (n + 1) % 4 = 0; omega) p q).trans
        (pointShare_eq m c ⟨n + 1, h⟩ i hi j hj 0 hs hn p q)
    | succ s' =>
      refine (acc_later m c ⟨n + 1, h⟩ (by show ¬(n + 1) % 4 = 0; omega) p q).trans ?_
      rw [pointShare_eq m c ⟨n + 1, h⟩ i hi j hj (s' + 1) hs hn p q]
      exact congrArg (· + _) (ih (Nat.lt_of_succ_lt h) i hi j hj s' (by omega) (by omega) p q)

end Cert.Lora.Ker

end
-- ==== Proof.KerArray.lean ====
/-
  From blocks to the result matrix.

  The output window is written back only at the points with k = 3, and then holds all four stretches' shares: block
  (i, j) of the product of the two operand matrices. The 8 × 4 blocks written back tile the [8192, 4096] result, so
  after the region the result matrix is the whole product.
-/
import proofs.«121115_j53068615909970_1_alg».proof.Proof.KerAccum

noncomputable section

namespace Cert.Lora.Ker

open Idealize.ShloMosaic Idealize.ShloMosaic.TcCoe Idealize.SL.Sem Idealize.ShloMosaic.ValueIdx
open Idealize.ShloMosaic.Pipeline (Dat)
open Cert.KernelIdeal Cert.KernelIdeal.Gen Cert.Lora

variable (m : (ℓ : Loc nD τ sig) → Buf (Elt Ideal) ℓ)

/-- The product of the two operand matrices as the region finds them. -/
def product (c : Dev nD) : Vec Ideal S8192x4096 .f32 :=
  fun idx => fullProd (lhsArr m c) (rhsArr m c) (idx 0) (idx 1)

/-- At a point with k = 3 the output block is block (t / 16, (t / 4) % 4) of the product. -/
theorem out_block (c : Dev nD) (t : Fin cfg0.N) (h3 : t.val % 4 = 3) (p q : Fin 1024) :
    outAfter m c t.val t.isLt (ix2 p q)
      = fullProd (lhsArr m c) (rhsArr m c) (bigRow (t.val / 16) (t_div16 t) p) (bigCol ((t.val / 4) % 4) (t_div4mod t) q) := by
  rw [out_eq_acc m c t h3,
    acc_eq_partial m c t.val t.isLt (t.val / 16) (t_div16 t) ((t.val / 4) % 4) (t_div4mod t) 3 (by norm_num) (by omega) p q]
  exact partialProd_four _ _ _ _

/-- What a write-back writes is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, h20, h21⟩ := index_facts t
  show (cfg0.win 2).cut (grid0.coords t) ((dats m 0 c).after 2 t) = _
  rw [after0_2]
  funext y
  rw [View.read_apply]
  show outAfter m c t.val t.isLt y = product m c (((cfg0.win 2).blk t).view.emb y)
  have hy : (y : S1024x1024.Idx) = ix2 (n0 := 1024) (n1 := 1024) (y 0) (y 1) := eq_ix2 (n0 := 1024) (n1 := 1024) y
  refine (congrArg (outAfter m c t.val t.isLt) hy).trans ?_
  refine (out_block m c t h3 (y 0) (y 1)).trans ?_
  unfold product
  congr 1
  · apply Fin.ext
    show 1024 * (t.val / 16) + (y 0).val = win0_2.index t 0 * 1024 + 1 * (y 0).val
    rw [h20]; omega
  · apply Fin.ext
    show 1024 * ((t.val / 4) % 4) + (y 1).val = win0_2.index t 1 * 1024 + 1 * (y 1).val
    rw [h21]; omega

/-- An entry of the result lies in point t's block iff each coordinate lies in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v10).slice (win0_2.rect t)).set ↔ _
  rw [View.set_slice_whole, Rect.mem_set_unit]
  exact Iff.rfl

/-- Every entry (r, n) of the result is written back by the point 16·(r / 1024) + 4·(n / 1024) + 3. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  let t : Fin cfg0.N := ⟨16 * ((i 0).val / 1024) + 4 * ((i 1).val / 1024) + 3, lt_of_lt_of_eq (by omega) N128.symm⟩
  have htv : t.val = 16 * ((i 0).val / 1024) + 4 * ((i 1).val / 1024) + 3 := rfl
  obtain ⟨-, -, -, -, h20, h21⟩ := index_facts t
  refine ⟨t, (flush0_2 t).mpr (by rw [htv]; omega), ?_⟩
  rw [mem_blk]
  intro a
  match a with
  | ⟨0, _⟩ =>
    show win0_2.index t 0 * 1024 ≤ (i 0).val ∧ (i 0).val < win0_2.index t 0 * 1024 + 1024
    rw [h20, htv]; omega
  | ⟨1, _⟩ =>
    show win0_2.index t 1 * 1024 ≤ (i 1).val ∧ (i 1).val < win0_2.index t 1 * 1024 + 1024
    rw [h21, htv]; omega

/-- After the region the result matrix is the product. -/
theorem result_eq (c : Dev nD) : (dats m 0 c).arrAt 2 cfg0.N = product m c :=
  (dats m 0 c).arrAt_eq_of_cover 2 (product m c) (flushed_eq m c) (covered)

end Cert.Lora.Ker

end
-- ==== Proof.KerHost.lean ====
/-
  The host lines around the kernel region, read at an index. Before the region: x is flattened to a
  [8192, 4096] matrix (row 2048·b + t is x[b, t, ·]) and the fused weight is built, entry (u, n) being
  W[n, u] + s · ∑ r, A[r, u] · B[n, r] (three transposes, a host contraction over r, a broadcast scalar, a
  product and a sum; the changes of float format are the identity on extended reals). After the region the
  [8192, 4096] result is cut back into [4, 2048, 4096].
-/
import proofs.«121115_j53068615909970_1_alg».proof.Proof.Gen.KernelIdeal.Frame
import proofs.«121115_j53068615909970_1_alg».proof.Proof.Spec
import Idealize.ShloMosaic.Lib.Pipeline.Value
import Idealize.ShloMosaic.Lib.ValueLayout
import Idealize.ShloMosaic.PureOps.Ideal.Laws
import Idealize.ShloMosaic.Lib.StableHlo.Run

noncomputable section

namespace Cert.Lora.Ker

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Row `row` of the flattened matrix is x[row / 2048, row % 2048, ·]. -/
def rowIx (row : Fin 8192) (u : Fin 4096) : S4x2048x4096.Idx :=
  ix3 (⟨row.val / 2048, by have := row.isLt; omega⟩ : Fin 4) (⟨row.val % 2048, Nat.mod_lt _ (by norm_num)⟩ : Fin 2048) u

/-- The left operand as the region finds it: the flattened x. -/
theorem entry_lhs (c : Dev nD) (row : Fin 8192) (u : Fin 4096) :
    (V m c main_v9 : S8192x4096.Idx → EReal) (ix2 row u) = m ((c : Thread nD τ).loc main_arg0) (rowIx row u) := by
  have e : @Eq (S8192x4096.Idx → EReal) (V m c main_v9)
      (truncf (F := Ideal) .bf16 (shapeCast S8192x4096 (m ((c : Thread nD τ).loc main_arg0) : S4x2048x4096.Idx → EReal) shapeCasts_S4x2048x4096_S8192x4096) bitsLt_bf16_f32) := by
    show StableHlo.after hostOps0 (fun b => m (c, b)) (Proc.devRef .tc main_v9) = _
    after_results; rfl
  rw [e, truncf_apply]
  refine shapeCast_apply _ _ _ (rowIx row u) ?_
  rw [Shape.rowMajor_val_two, Shape.rowMajor_val_three]
  show ((row.val / 2048) * 2048 + row.val % 2048) * 4096 + u.val = row.val * 4096 + u.val
  omega

/-! The host contraction over r: where its two operands are read, axis by axis. The left operand keeps the
    output's row on its axis 0 and is contracted on its axis 1; the right operand is contracted on its axis 0
    and keeps the output's column on its axis 1. -/

theorem lhs_main_v3_0 (i : S4096x4096.Idx) (q : dot_S4096x64_S64x4096_S4096x4096_1_0_0_1_n_n.contr.Idx) :
    (dot_S4096x64_S64x4096_S4096x4096_1_0_0_1_n_n.lhsIdx i q 0).val = (i 0).val := by
  unfold DotDims.lhsIdx
  rw [dif_neg (show ¬(0 : Fin S4096x64.rank) ∈ dot_S4096x64_S64x4096_S4096x4096_1_0_0_1_n_n.lhsBatch by decide), dif_pos (show (0 : Fin S4096x64.rank) ∈ dot_S4096x64_S64x4096_S4096x4096_1_0_0_1_n_n.lhsNonContracting by decide)]
  rfl
theorem lhs_main_v3_1 (i : S4096x4096.Idx) (q : dot_S4096x64_S64x4096_S4096x4096_1_0_0_1_n_n.contr.Idx) :
    (dot_S4096x64_S64x4096_S4096x4096_1_0_0_1_n_n.lhsIdx i q 1).val = (q ⟨0, by decide⟩).val :=
  dot_S4096x64_S64x4096_S4096x4096_1_0_0_1_n_n.lhsIdx_val_of_single rfl i q
theorem rhs_main_v3_0 (i : S4096x4096.Idx) (q : dot_S4096x64_S64x4096_S4096x4096_1_0_0_1_n_n.contr.Idx) :
    (dot_S4096x64_S64x4096_S4096x4096_1_0_0_1_n_n.rhsIdx i q 0).val = (q ⟨0, by decide⟩).val :=
  dot_S4096x64_S64x4096_S4096x4096_1_0_0_1_n_n.rhsIdx_val_of_single rfl i q
theorem rhs_main_v3_1 (i : S4096x4096.Idx) (q : dot_S4096x64_S64x4096_S4096x4096_1_0_0_1_n_n.contr.Idx) :
    (dot_S4096x64_S64x4096_S4096x4096_1_0_0_1_n_n.rhsIdx i q 1).val = (i 1).val := by
  unfold DotDims.rhsIdx
  rw [dif_neg (show ¬(1 : Fin S64x4096.rank) ∈ dot_S4096x64_S64x4096_S4096x4096_1_0_0_1_n_n.rhsBatch by decide), dif_pos (show (1 : Fin S64x4096.rank) ∈ dot_S4096x64_S64x4096_S4096x4096_1_0_0_1_n_n.rhsNonContracting by decide)]
  rfl

/-- The host contraction at (u, n) is the sum over r of left[u, r] · right[r, n]. -/
theorem hostDot_apply (l : FVec Ideal S4096x64 .f32) (r : FVec Ideal S64x4096 .f32) (u n : Fin 4096) :
    Host.dotGeneral (F := Ideal) dot_S4096x64_S64x4096_S4096x4096_1_0_0_1_n_n none l r (ix2 u n) = ∑ k : Fin 64, l (ix2 u k) * r (ix2 k n) := by
  simp only [Host.dotGeneral]
  rw [Ideal.dotGeneral_apply, ← Equiv.sum_comp (ValueIdx.contrEquiv1 dot_S4096x64_S64x4096_S4096x4096_1_0_0_1_n_n 64 rfl rfl).symm]
  refine Finset.sum_congr rfl fun k _ => ?_
  have hk := ValueIdx.contrEquiv1_symm_val dot_S4096x64_S64x4096_S4096x4096_1_0_0_1_n_n 64 rfl rfl k
  have el : dot_S4096x64_S64x4096_S4096x4096_1_0_0_1_n_n.lhsIdx (ix2 u n) ((ValueIdx.contrEquiv1 dot_S4096x64_S64x4096_S4096x4096_1_0_0_1_n_n 64 rfl rfl).symm k) = ix2 u k := funext fun a => Fin.ext (by
    match a with
    | ⟨0, _⟩ => exact lhs_main_v3_0 _ _
    | ⟨1, _⟩ => exact (lhs_main_v3_1 _ _).trans hk)
  have er : dot_S4096x64_S64x4096_S4096x4096_1_0_0_1_n_n.rhsIdx (ix2 u n) ((ValueIdx.contrEquiv1 dot_S4096x64_S64x4096_S4096x4096_1_0_0_1_n_n 64 rfl rfl).symm k) = ix2 k n := funext fun a => Fin.ext (by
    match a with
    | ⟨0, _⟩ => exact (rhs_main_v3_0 _ _).trans hk
    | ⟨1, _⟩ => exact rhs_main_v3_1 _ _)
  rw [el, er]

/-- The three transposes swap the two coordinates. -/
theorem transposeW_apply (W : FVec Ideal S4096x4096 .f32) (u n : Fin 4096) :
    transpose S4096x4096 [1, 0] W transposes_S4096x4096_S4096x4096_1_0 (ix2 u n) = W (ix2 n u) :=
  transpose_apply [1, 0] W transposes_S4096x4096_S4096x4096_1_0 (ix2 u n) (ix2 n u) (fun b => by
    match b with
    | ⟨0, _⟩ => rfl
    | ⟨1, _⟩ => rfl)
theorem transposeA_apply (A : FVec Ideal S64x4096 .f32) (u : Fin 4096) (k : Fin 64) :
    transpose S4096x64 [1, 0] A transposes_S64x4096_S4096x64_1_0 (ix2 u k) = A (ix2 k u) :=
  transpose_apply [1, 0] A transposes_S64x4096_S4096x64_1_0 (ix2 u k) (ix2 k u) (fun b => by
    match b with
    | ⟨0, _⟩ => rfl
    | ⟨1, _⟩ => rfl)
theorem transposeB_apply (B : FVec Ideal S4096x64 .f32) (k : Fin 64) (n : Fin 4096) :
    transpose S64x4096 [1, 0] B transposes_S4096x64_S64x4096_1_0 (ix2 k n) = B (ix2 n k) :=
  transpose_apply [1, 0] B transposes_S4096x64_S64x4096_1_0 (ix2 k n) (ix2 n k) (fun b => by
    match b with
    | ⟨0, _⟩ => rfl
    | ⟨1, _⟩ => rfl)

/-- The broadcast scalar reads the scaling constant everywhere. -/
theorem scalar_apply (j : S4096x4096.Idx) :
    broadcastInDim S4096x4096 ![] bcast_S_S4096x4096 (constant (F := Ideal) S_ .f32 0x40000000#32) j = Cert.Lora.scale :=
  broadcastInDim_apply _ bcast_S_S4096x4096 (constant (F := Ideal) S_ .f32 0x40000000#32) j (fun a => a.elim0) (fun a => a.elim0)

/-- The right operand as the region finds it: the fused weight of W, A, B. -/
theorem entry_rhs (c : Dev nD) (u n : Fin 4096) :
    (V m c main_v7 : S4096x4096.Idx → EReal) (ix2 u n)
      = Cert.Lora.fusedWeight (m ((c : Thread nD τ).loc main_arg1)) (m ((c : Thread nD τ).loc main_arg2))
          (m ((c : Thread nD τ).loc main_arg3)) u n := by
  have e : @Eq (S4096x4096.Idx → EReal) (V m c main_v7)
      (truncf (F := Ideal) .bf16
        (addf (transpose S4096x4096 [1, 0] (m ((c : Thread nD τ).loc main_arg1) : FVec Ideal S4096x4096 .f32) transposes_S4096x4096_S4096x4096_1_0)
          (mulf (broadcastInDim S4096x4096 ![] bcast_S_S4096x4096 (constant (F := Ideal) S_ .f32 0x40000000#32))
            (Host.dotGeneral (F := Ideal) dot_S4096x64_S64x4096_S4096x4096_1_0_0_1_n_n none
              (transpose S4096x64 [1, 0] (m ((c : Thread nD τ).loc main_arg2) : FVec Ideal S64x4096 .f32) transposes_S64x4096_S4096x64_1_0 : FVec Ideal S4096x64 .f32)
              (transpose S64x4096 [1, 0] (m ((c : Thread nD τ).loc main_arg3) : FVec Ideal S4096x64 .f32) transposes_S4096x64_S64x4096_1_0 : FVec Ideal S64x4096 .f32))))
        bitsLt_bf16_f32) := by
    show StableHlo.after hostOps0 (fun b => m (c, b)) (Proc.devRef .tc main_v7) = _
    after_results
  rw [e, truncf_apply, addf_apply, mulf_apply, transposeW_apply, scalar_apply, hostDot_apply]
  unfold Cert.Lora.fusedWeight
  refine congrArg (fun z => _ + Cert.Lora.scale * z) (Finset.sum_congr rfl fun k _ => ?_)
  rw [transposeA_apply, transposeB_apply]

/-- The reshape after the region reads (b, t, n) at row 2048·b + t, column n. -/
theorem tail_apply (K : S8192x4096.Idx → EReal) (i : S4x2048x4096.Idx) :
    shapeCast S4x2048x4096 K shapeCasts_S8192x4096_S4x2048x4096 i
      = K (ix2 (⟨2048 * (i 0).val + (i 1).val, by have h0 : (i 0).val < 4 := (i 0).isLt; have h1 : (i 1).val < 2048 := (i 1).isLt; show _ < 8192; omega⟩ : Fin 8192) (i 2)) := by
  refine shapeCast_apply K shapeCasts_S8192x4096_S4x2048x4096 i _ ?_
  rw [Shape.rowMajor_val_two, Shape.rowMajor_val_three]
  show (2048 * (i 0).val + (i 1).val) * 4096 + (i 2).val = ((i 0).val * 2048 + (i 1).val) * 4096 + (i 2).val
  omega

end Cert.Lora.Ker

end
-- ==== Proof.KerRun.lean ====
/-
  The kernel program's run, read: its result array is the fused arrangement of its four arguments.

  After the region the [8192, 4096] result is the product of the flattened x with the fused weight; the reshape that
  follows cuts row 2048·b + t back into (b, t). Entry by entry that is
      out[b, t, n] = ∑ u, x[b, t, u] · (W[n, u] + s · ∑ r, A[r, u] · B[n, r]).
-/
import proofs.«121115_j53068615909970_1_alg».proof.Proof.KerArray
import proofs.«121115_j53068615909970_1_alg».proof.Proof.KerHost
import Idealize.ShloMosaic.Lib.StableHlo.Run

noncomputable section

namespace Cert.Lora.Ker

open Idealize.ShloMosaic Idealize.ShloMosaic.TcCoe Idealize.SL.Sem Idealize.ShloMosaic.ValueIdx
open Idealize.ShloMosaic.Pipeline (Dat)
open Cert.KernelIdeal Cert.KernelIdeal.Gen Cert.Lora

variable (m : (ℓ : Loc nD τ sig) → Buf (Elt Ideal) ℓ) (ρ : Dev nD → PrngReg)

/-- The four argument arrays at launch, as arrays of extended reals. -/
abbrev argX (c : Dev nD) : SX.Idx → EReal := (m ((c : Thread nD τ).loc main_arg0))
abbrev argW (c : Dev nD) : SW.Idx → EReal := (m ((c : Thread nD τ).loc main_arg1))
abbrev argA (c : Dev nD) : SA.Idx → EReal := (m ((c : Thread nD τ).loc main_arg2))
abbrev argB (c : Dev nD) : SB.Idx → EReal := (m ((c : Thread nD τ).loc main_arg3))

/-- The product at (row, n): x's flattened row against column n of the fused weight. -/
theorem product_apply (c : Dev nD) (row : Fin 8192) (n : Fin 4096) :
    product m c (ix2 row n)
      = ∑ u : Fin 4096, argX m c (rowIx row u) * fusedWeight (argW m c) (argA m c) (argB m c) u n := by
  show fullProd (lhsArr m c) (rhsArr m c) row n = _
  unfold fullProd
  refine Finset.sum_congr rfl fun u _ => ?_
  exact congrArg₂ (fun a b : EReal => a * b) (entry_lhs m c row u) (entry_rhs m c u n)

/-- The product cut back into [4, 2048, 4096] is the fused arrangement of the arguments. -/
theorem value_eq (c : Dev nD) :
    shapeCast S4x2048x4096 (product m c) shapeCasts_S8192x4096_S4x2048x4096
      = fused (argX m c) (argW m c) (argA m c) (argB m c) := by
  funext i
  refine (tail_apply (product m c) i).trans ?_
  refine (product_apply m c _ (i 2)).trans ?_
  unfold fused
  refine Finset.sum_congr rfl fun u _ => ?_
  have h0 : (i 0).val < 4 := (i 0).isLt
  have h1 : (i 1).val < 2048 := (i 1).isLt
  have e : rowIx (⟨2048 * (i 0).val + (i 1).val, by show _ < 8192; omega⟩ : Fin 8192) u = ix3 (i 0) (i 1) u := by
    funext a
    apply Fin.ext
    match a with
    | ⟨0, _⟩ => show (2048 * (i 0).val + (i 1).val) / 2048 = (i 0).val; omega
    | ⟨1, _⟩ => show (2048 * (i 0).val + (i 1).val) % 2048 = (i 1).val; omega
    | ⟨2, _⟩ => rfl
  rw [e]
  rfl

/-- What the host line after the region leaves in the result: the product, reshaped. -/
theorem tail_value (c : Dev nD) :
    Pipeline.afterTail₀ cfgs (dats m) 0 (V0 m) [hostOps1] c main_v11
      = shapeCast S4x2048x4096 (product m c) shapeCasts_S8192x4096_S4x2048x4096 := by
  have hw : Pipeline.withArrays (cfgs 0).spec c (V0 m c) (fun w => (dats m 0 c).arrAt w (cfgs 0).N) (Proc.tc.devRef main_v10)
      = product m c :=
    (Pipeline.withArrays_arr spec0 launch0.win.arr_inj c (V0 m c) (fun w => (dats m 0 c).arrAt w cfg0.N) 2).trans (result_eq m c)
  unfold Pipeline.afterTail₀
  show StableHlo.after hostOps1 _ (Proc.devRef .tc main_v11) = _
  after_results
  rw [hw]
  rfl

/-- The kernel program's run: every weakly fair execution ends with the result array at the fused arrangement of the
    four arguments, and the arguments as they were. -/
theorem run : θ_run defs (onTc (τ := τ) (main (F := Ideal))) ⟨m, fun _ => 0, ρ⟩ fun r => ∀ c : Dev nD,
      r.2.mem ((c.tc : Thread nD τ).loc main_v11) = fused (argX m c) (argW m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans ((tail_value m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Lora.Ker

end
-- ==== Proof.lean ====
/-
  A linear layer with a low-rank update, two ways.

  The kernel program first folds the update into the weight on the host, W_eff[u, n] = W[n, u] + s · ∑ r, A[r, u] · B[n, r],
  then multiplies the flattened input by it in one tiled matrix product: 8 × 4 output blocks of [1024, 1024], each
  accumulated over four stretches of the contraction axis in a scratch block that is reset at the first stretch and
  copied out at the last. So its result is
      out[b, t, n] = ∑ u, x[b, t, u] · (W[n, u] + s · ∑ r, A[r, u] · B[n, r]).
  The reference keeps the two paths apart:
      out[b, t, n] = ∑ u, x[b, t, u] · W[n, u] + s · ∑ r, (∑ u, x[b, t, u] · A[r, u]) · B[n, r].
  Over the extended reals the changes of float format are the identity, and when every input entry is a real number
  (the precondition) the two are equal: distribute x over the bracket, pull s out of the sum, exchange the two finite sums.

  The frames of the two kernel programs and the per-point contents of the accumulator come from the generated frame
  modules; the reference's run and its stages read at an index from the generated run modules. No operation of the
  kernel program was rewritten for its idealization: it is the program's own text read over the extended reals.
-/
import proofs.«121115_j53068615909970_1_alg».proof.Defs
import proofs.«121115_j53068615909970_1_alg».proof.Proof.Gen.Kernel
import proofs.«121115_j53068615909970_1_alg».proof.Proof.Gen.Kernel.Skeleton
import proofs.«121115_j53068615909970_1_alg».proof.Proof.Gen.Kernel.Launch
import proofs.«121115_j53068615909970_1_alg».proof.Proof.Gen.Kernel.Points
import proofs.«121115_j53068615909970_1_alg».proof.Proof.Gen.Kernel.Frame
import proofs.«121115_j53068615909970_1_alg».proof.Proof.Gen.KernelIdeal
import proofs.«121115_j53068615909970_1_alg».proof.Proof.Gen.KernelIdeal.Skeleton
import proofs.«121115_j53068615909970_1_alg».proof.Proof.Gen.KernelIdeal.Launch
import proofs.«121115_j53068615909970_1_alg».proof.Proof.Gen.KernelIdeal.Points
import proofs.«121115_j53068615909970_1_alg».proof.Proof.Gen.KernelIdeal.Frame
import proofs.«121115_j53068615909970_1_alg».proof.Proof.Gen.ReferenceIdeal
import proofs.«121115_j53068615909970_1_alg».proof.Proof.Gen.ReferenceIdeal.Run
import proofs.«121115_j53068615909970_1_alg».proof.Proof.Gen.ReferenceIdeal.Read
import proofs.«121115_j53068615909970_1_alg».proof.Proof.Gen.Pre_finite_inputs
import proofs.«121115_j53068615909970_1_alg».proof.Proof.Spec
import proofs.«121115_j53068615909970_1_alg».proof.Proof.Algebra
import proofs.«121115_j53068615909970_1_alg».proof.Proof.Finite
import proofs.«121115_j53068615909970_1_alg».proof.Proof.RefSide
import proofs.«121115_j53068615909970_1_alg».proof.Proof.KerRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The kernel program read over the extended reals runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the word-level one's own text: no operation of it was rewritten. -/
theorem preserves : Cert.preserves_Kernel_KernelIdeal := trivial

/-- From memories agreeing on real-valued arguments both programs end at the fused arrangement of the arguments:
    the kernel program computes it as written, the reference computes the low-rank arrangement, equal to it over reals. -/
theorem algebraic : Cert.algebraic_KernelIdeal_ReferenceIdeal := by
  intro m ρ m' ρ' hpre hagree
  refine ⟨fun c => Cert.Lora.fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Lora.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Lora.Ref.val_eq_lowRank,
    (hagree c).1, (hagree c).2.1, (hagree c).2.2.1, (hagree c).2.2.2]
  obtain ⟨hx, hW, hA, hB⟩ := Cert.Lora.real_of_finite _ _ _ _ (hpre c)
  exact (Cert.Lora.fused_eq_lowRank _ _ _ _ hx hW hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
